-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x256x1024 : Shape := ⟨3, ![64, 256, 1024]⟩
abbrev S64x512x1024 : Shape := ⟨3, ![64, 512, 1024]⟩
abbrev S64x512 : Shape := ⟨2, ![64, 512]⟩
abbrev S_ : Shape := ⟨0, ![]⟩

class Facts : Prop where
  bcast_S_S64x256x1024 : S_.BroadcastsInDim S64x256x1024 (![] : Fin 0 → Fin S64x256x1024.rank)
  reducesTo_S64x256x1024_S_d0_1_2 : S64x256x1024.ReducesTo [0, 1, 2] S_
  h_S_ : 0 < S_.numel
  bcast_S_S64x512x1024 : S_.BroadcastsInDim S64x512x1024 (![] : Fin 0 → Fin S64x512x1024.rank)
  reducesTo_S64x512x1024_S_d0_1_2 : S64x512x1024.ReducesTo [0, 1, 2] S_
  bcast_S_S64x512 : S_.BroadcastsInDim S64x512 (![] : Fin 0 → Fin S64x512.rank)
  reducesTo_S64x512_S_d0_1 : S64x512.ReducesTo [0, 1] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S64x256x1024 .f32) (main_arg1 : FVec F S64x512x1024 .f32) (main_arg2 : IVec S64x512 32) (main_arg3 : IVec S64x512 1) (main_arg4 : IVec S64x512 1) : IVec S_ 1 :=
  let main_v0 : FVec F S64x256x1024 .f32 := Host.absf main_arg0
  let main_cst : FVec F S_ .f32 := constant S_ .f32 0x7F800000#32
  let main_v1 : FVec F S64x256x1024 .f32 := broadcastInDim S64x256x1024 ![] bcast_S_S64x256x1024 main_cst
  let main_v2 : IVec S64x256x1024 1 := cmpf .olt main_v0 main_v1
  let main_c : IVec S_ 1 := constantI S_ 1 1#1
  let main_v3 : IVec S_ 1 := (fun x v => Host.reduce IntOp.andi x v reducesTo_S64x256x1024_S_d0_1_2 h_S_) main_v2 main_c
  let main_v4 : FVec F S64x512x1024 .f32 := Host.absf main_arg1
  let main_cst_0 : FVec F S_ .f32 := constant S_ .f32 0x7F800000#32
  let main_v5 : FVec F S64x512x1024 .f32 := broadcastInDim S64x512x1024 ![] bcast_S_S64x512x1024 main_cst_0
  let main_v6 : IVec S64x512x1024 1 := cmpf .olt main_v4 main_v5
  let main_c_1 : IVec S_ 1 := constantI S_ 1 1#1
  let main_v7 : IVec S_ 1 := (fun x v => Host.reduce IntOp.andi x v reducesTo_S64x512x1024_S_d0_1_2 h_S_) main_v6 main_c_1
  let main_v8 : IVec S_ 1 := andi main_v3 main_v7
  let main_c_2 : IVec S_ 32 := constantI S_ 32 0#32
  let main_v9 : IVec S64x512 32 := broadcastInDim S64x512 ![] bcast_S_S64x512 main_c_2
  let main_v10 : IVec S64x512 1 := cmpi .sge main_arg2 main_v9
  let main_c_3 : IVec S_ 1 := constantI S_ 1 1#1
  let main_v11 : IVec S_ 1 := (fun x v => Host.reduce IntOp.andi x v reducesTo_S64x512_S_d0_1 h_S_) main_v10 main_c_3
  let main_v12 : IVec S_ 1 := andi main_v8 main_v11
  let main_c_4 : IVec S_ 32 := constantI S_ 32 256#32
  let main_v13 : IVec S64x512 32 := broadcastInDim S64x512 ![] bcast_S_S64x512 main_c_4
  let main_v14 : IVec S64x512 1 := cmpi .slt main_arg2 main_v13
  let main_c_5 : IVec S_ 1 := constantI S_ 1 1#1
  let main_v15 : IVec S_ 1 := (fun x v => Host.reduce IntOp.andi x v reducesTo_S64x512_S_d0_1 h_S_) main_v14 main_c_5
  fn_part1 (F := F) main_v12 main_v15
-- ==== Kernel.lean ====
abbrev S64x256x1024 : Shape := ⟨3, ![64, 256, 1024]⟩
abbrev S64x512x1024 : Shape := ⟨3, ![64, 512, 1024]⟩
abbrev S64x512 : Shape := ⟨2, ![64, 512]⟩
abbrev S_ : Shape := ⟨0, ![]⟩
abbrev S64x512x1 : Shape := ⟨3, ![64, 512, 1]⟩
abbrev S1x256x1024 : Shape := ⟨3, ![1, 256, 1024]⟩
abbrev S1x512x1024 : Shape := ⟨3, ![1, 512, 1024]⟩
abbrev S1x512x1 : Shape := ⟨3, ![1, 512, 1]⟩
abbrev S256x1024 : Shape := ⟨2, ![256, 1024]⟩
abbrev S512x1 : Shape := ⟨2, ![512, 1]⟩
abbrev S512x256 : Shape := ⟨2, ![512, 256]⟩
abbrev S512x1024 : Shape := ⟨2, ![512, 1024]⟩

abbrev nBuf : Space → Nat
  | .hbm => 16
  | .vmem => 12
  | .smem => 0
  | _ => 0

abbrev bufTy : (tb : Table) → Fin (tcTables nBuf tb) → BufTy
  | .hbm, ⟨0, _⟩ => ⟨S64x256x1024, .f32⟩
  | .hbm, ⟨1, _⟩ => ⟨S64x512x1024, .f32⟩
  | .hbm, ⟨2, _⟩ => ⟨S64x512, .i32⟩
  | .hbm, ⟨3, _⟩ => ⟨S64x512, .i1⟩
  | .hbm, ⟨4, _⟩ => ⟨S64x512, .i1⟩
  | .hbm, ⟨5, _⟩ => ⟨S_, .f32⟩
  | .hbm, ⟨6, _⟩ => ⟨S_, .f32⟩
  | .hbm, ⟨7, _⟩ => ⟨S64x512, .f32⟩
  | .hbm, ⟨8, _⟩ => ⟨S64x512, .f32⟩
  | .hbm, ⟨9, _⟩ => ⟨S64x512, .f32⟩
  | .hbm, ⟨10, _⟩ => ⟨S64x512, .f32⟩
  | .hbm, ⟨11, _⟩ => ⟨S64x512x1, .f32⟩
  | .hbm, ⟨12, _⟩ => ⟨S64x512, .f32⟩
  | .hbm, ⟨13, _⟩ => ⟨S64x512x1, .f32⟩
  | .hbm, ⟨14, _⟩ => ⟨S64x512x1, .i32⟩
  | .hbm, ⟨15, _⟩ => ⟨S64x512x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x512x1, .i32⟩
  | .local _ .vmem, ⟨5, _⟩ => ⟨S1x512x1, .i32⟩
  | .local _ .vmem, ⟨6, _⟩ => ⟨S1x512x1, .f32⟩
  | .local _ .vmem, ⟨7, _⟩ => ⟨S1x512x1, .f32⟩
  | .local _ .vmem, ⟨8, _⟩ => ⟨S1x512x1, .f32⟩
  | .local _ .vmem, ⟨9, _⟩ => ⟨S1x512x1, .f32⟩
  | .local _ .vmem, ⟨10, _⟩ => ⟨S1x512x1024, .f32⟩
  | .local _ .vmem, ⟨11, _⟩ => ⟨S1x512x1024, .f32⟩
  | _, _ => ⟨S64x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_call0_v0 : Ref sig .tc := ⟨.hbm, 7, rfl⟩
abbrev main_call0_v1 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S64x512 : S_.BroadcastsInDim S64x512 (![] : Fin 0 → Fin S64x512.rank)
  shapeCasts_S64x512_S64x512x1 : S64x512.ShapeCasts S64x512x1
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  bitsLt_bf16_f32 : FTy.bits .bf16 < FTy.bits .f32
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  iota_S512x256_d1_w32 : S512x256.Iotas .tc 32 [1]
  broadcasts_S512x1_S512x256 : S512x1.Broadcasts S512x256
  natLt_1_32 : 1 < 32
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  broadcasts_S512x1_S512x1024 : S512x1.Broadcasts S512x1024
  shapeCasts_S512x1024_S1x512x1024 : S512x1024.ShapeCasts S1x512x1024
  dot_S512x256_S256x1024_S512x1024_1_0_0_1_n_n_wf : DotDims.WF S512x256 S256x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S64x256x1024.size a
  hwx0_0 : ∀ i : grid0.Coords, EltTy.bits .f32 = 32 ∨ (Rect.block (s := S64x256x1024) S1x256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1024.size a ≤ S64x512x1024.size a
  hwx0_1 : ∀ i : grid0.Coords, EltTy.bits .f32 = 32 ∨ (Rect.block (s := S64x512x1024) S1x512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1.size a ≤ S64x512x1.size a
  hwx0_2 : ∀ i : grid0.Coords, EltTy.bits .i32 = 32 ∨ (Rect.block (s := S64x512x1) S1x512x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x1.size a ≤ S64x512x1.size a
  hwx0_3 : ∀ i : grid0.Coords, EltTy.bits .f32 = 32 ∨ (Rect.block (s := S64x512x1) S1x512x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x1.size a ≤ S64x512x1.size a
  hwx0_4 : ∀ i : grid0.Coords, EltTy.bits .f32 = 32 ∨ (Rect.block (s := S64x512x1) S1x512x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x1024.size a ≤ S64x512x1024.size a
  hwx0_5 : ∀ i : grid0.Coords, EltTy.bits .f32 = 32 ∨ (Rect.block (s := S64x512x1024) S1x512x1024.size (cc0_transform_5 i) (hinb0_5 i)).WholeWords (EltTy.packing .f32)

variable [Facts₀]

def dot_S512x256_S256x1024_S512x1024_1_0_0_1_n_n : DotDims S512x256 S256x1024 S512x1024 where
  lhsContracting := [1]
  rhsContracting := [0]
  lhsNonContracting := [0]
  rhsNonContracting := [1]
  lhsBatch := []
  rhsBatch := []
  wf := dot_S512x256_S256x1024_S512x1024_1_0_0_1_n_n_wf

abbrev win0_0 : Pipeline.Window sig grid0 :=
  Pipeline.Window.ofSpec (Memref.whole main_arg0) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x512x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x512x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S64x256x1024 : Shape := ⟨3, ![64, 256, 1024]⟩
abbrev S64x512x1024 : Shape := ⟨3, ![64, 512, 1024]⟩
abbrev S64x512 : Shape := ⟨2, ![64, 512]⟩
abbrev S64x512x1 : Shape := ⟨3, ![64, 512, 1]⟩
abbrev S_ : Shape := ⟨0, ![]⟩
abbrev S1 : Shape := ⟨1, ![1]⟩
abbrev S1x1x1 : Shape := ⟨3, ![1, 1, 1]⟩

abbrev nBuf : Space → Nat
  | .hbm => 48
  | .vmem => 0
  | .smem => 0
  | _ => 0

abbrev bufTy : (tb : Table) → Fin (tcTables nBuf tb) → BufTy
  | .hbm, ⟨0, _⟩ => ⟨S64x256x1024, .f32⟩
  | .hbm, ⟨1, _⟩ => ⟨S64x512x1024, .f32⟩
  | .hbm, ⟨2, _⟩ => ⟨S64x512, .i32⟩
  | .hbm, ⟨3, _⟩ => ⟨S64x512, .i1⟩
  | .hbm, ⟨4, _⟩ => ⟨S64x512, .i1⟩
  | .hbm, ⟨5, _⟩ => ⟨S64x512x1, .i32⟩
  | .hbm, ⟨6, _⟩ => ⟨S_, .i32⟩
  | .hbm, ⟨7, _⟩ => ⟨S64x512x1, .i32⟩
  | .hbm, ⟨8, _⟩ => ⟨S64x512x1, .i1⟩
  | .hbm, ⟨9, _⟩ => ⟨S_, .i32⟩
  | .hbm, ⟨10, _⟩ => ⟨S64x512x1, .i32⟩
  | .hbm, ⟨11, _⟩ => ⟨S64x512x1, .i32⟩
  | .hbm, ⟨12, _⟩ => ⟨S64x512x1, .i32⟩
  | .hbm, ⟨13, _⟩ => ⟨S1, .i32⟩
  | .hbm, ⟨14, _⟩ => ⟨S_, .i32⟩
  | .hbm, ⟨15, _⟩ => ⟨S64x512x1, .i32⟩
  | .hbm, ⟨16, _⟩ => ⟨S64x512x1, .i1⟩
  | .hbm, ⟨17, _⟩ => ⟨S1x1x1, .i32⟩
  | .hbm, ⟨18, _⟩ => ⟨S64x512x1, .i32⟩
  | .hbm, ⟨19, _⟩ => ⟨S64x512x1, .i1⟩
  | .hbm, ⟨20, _⟩ => ⟨S64x512x1, .i1⟩
  | .hbm, ⟨21, _⟩ => ⟨S_, .i1⟩
  | .hbm, ⟨22, _⟩ => ⟨S64x512, .i1⟩
  | .hbm, ⟨23, _⟩ => ⟨S64x512x1024, .f32⟩
  | .hbm, ⟨24, _⟩ => ⟨S64x512x1024, .i1⟩
  | .hbm, ⟨25, _⟩ => ⟨S_, .f32⟩
  | .hbm, ⟨26, _⟩ => ⟨S64x512x1024, .f32⟩
  | .hbm, ⟨27, _⟩ => ⟨S64x512x1024, .f32⟩
  | .hbm, ⟨28, _⟩ => ⟨S_, .f32⟩
  | .hbm, ⟨29, _⟩ => ⟨S_, .f32⟩
  | .hbm, ⟨30, _⟩ => ⟨S64x512, .f32⟩
  | .hbm, ⟨31, _⟩ => ⟨S64x512, .f32⟩
  | .hbm, ⟨32, _⟩ => ⟨S64x512, .f32⟩
  | .hbm, ⟨33, _⟩ => ⟨S64x512x1, .f32⟩
  | .hbm, ⟨34, _⟩ => ⟨S64x512x1, .f32⟩
  | .hbm, ⟨35, _⟩ => ⟨S64x512x1024, .f32⟩
  | .hbm, ⟨36, _⟩ => ⟨S64x512x1024, .f32⟩
  | .hbm, ⟨37, _⟩ => ⟨S_, .f32⟩
  | .hbm, ⟨38, _⟩ => ⟨S64x512x1, .f32⟩
  | .hbm, ⟨39, _⟩ => ⟨S64x512x1, .f32⟩
  | .hbm, ⟨40, _⟩ => ⟨S64x512x1024, .f32⟩
  | .hbm, ⟨41, _⟩ => ⟨S64x512x1024, .f32⟩
  | .hbm, ⟨42, _⟩ => ⟨S64x512x1024, .f32⟩
  | .hbm, ⟨43, _⟩ => ⟨S64x512x1, .i1⟩
  | .hbm, ⟨44, _⟩ => ⟨S_, .f32⟩
  | .hbm, ⟨45, _⟩ => ⟨S64x512x1024, .i1⟩
  | .hbm, ⟨46, _⟩ => ⟨S64x512x1024, .f32⟩
  | .hbm, ⟨47, _⟩ => ⟨S64x512x1024, .f32⟩
  | _, _ => ⟨S64x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_c_1 : Ref sig .tc := ⟨.hbm, 13, rfl⟩
abbrev main_call0_c_2 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_c_3 : Ref sig .tc := ⟨.hbm, 21, rfl⟩
abbrev main_call0_v11 : Ref sig .tc := ⟨.hbm, 22, rfl⟩
abbrev main_call0_v12 : Ref sig .tc := ⟨.hbm, 23, rfl⟩
abbrev main_call0_v13 : Ref sig .tc := ⟨.hbm, 24, rfl⟩
abbrev main_call0_cst : Ref sig .tc := ⟨.hbm, 25, rfl⟩
abbrev main_call0_v14 : Ref sig .tc := ⟨.hbm, 26, rfl⟩
abbrev main_v1 : Ref sig .tc := ⟨.hbm, 27, rfl⟩
abbrev main_cst : Ref sig .tc := ⟨.hbm, 28, rfl⟩
abbrev main_cst_0 : Ref sig .tc := ⟨.hbm, 29, rfl⟩
abbrev main_call1_v0 : Ref sig .tc := ⟨.hbm, 30, rfl⟩
abbrev main_call1_v1 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_cst_1 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_cst_2 : Ref sig .tc := ⟨.hbm, 44, rfl⟩
abbrev main_call2_v0 : Ref sig .tc := ⟨.hbm, 45, rfl⟩
abbrev main_call2_v1 : Ref sig .tc := ⟨.hbm, 46, rfl⟩
abbrev main_v13 : Ref sig .tc := ⟨.hbm, 47, rfl⟩

abbrev nD : Nat := 1
abbrev τ : Topo := Topo.v7x

variable {F : FTy → Type} [FloatOps F]

class Facts₀ : Prop where
  bcast_S64x512_S64x512x1_0_1 : S64x512.BroadcastsInDim S64x512x1 (![0, 1] : Fin 2 → Fin S64x512x1.rank)
  bcast_S_S64x512x1 : S_.BroadcastsInDim S64x512x1 (![] : Fin 0 → Fin S64x512x1.rank)
  bcast_S1_S1x1x1_2 : S1.BroadcastsInDim S1x1x1 (![2] : Fin 1 → Fin S1x1x1.rank)
  bcast_S1x1x1_S64x512x1_0_1_2 : S1x1x1.BroadcastsInDim S64x512x1 (![0, 1, 2] : Fin 3 → Fin S64x512x1.rank)
  reducesTo_S64x512x1_S64x512_d2 : S64x512x1.ReducesTo [2] S64x512
  h_S_ : 0 < S_.numel
  bcast_S64x512_S64x512x1024_0_1 : S64x512.BroadcastsInDim S64x512x1024 (![0, 1] : Fin 2 → Fin S64x512x1024.rank)
  bcast_S_S64x512x1024 : S_.BroadcastsInDim S64x512x1024 (![] : Fin 0 → Fin S64x512x1024.rank)
  bcast_S_S64x512 : S_.BroadcastsInDim S64x512 (![] : Fin 0 → Fin S64x512.rank)
  bcast_S64x512x1_S64x512x1024_0_1_2 : S64x512x1.BroadcastsInDim S64x512x1024 (![0, 1, 2] : Fin 3 → Fin S64x512x1024.rank)
  gather_S64x256x1024_S64x512x1_S64x512x1024_2_1_0_0_1_2_111024_wf : GatherDims.WF S64x256x1024 S64x512x1 S64x512x1024 [2] [1] [0] [1] [0] 2 ![1, 1, 1024]

variable [Facts₀]

def gather_S64x256x1024_S64x512x1_S64x512x1024_2_1_0_0_1_2_111024 : GatherDims S64x256x1024 S64x512x1 S64x512x1024 where
  offsetDims := [2]
  collapsedSliceDims := [1]
  operandBatchingDims := [0]
  startIndicesBatchingDims := [0]
  startIndexMap := [1]
  indexVectorDim := 2
  sliceSizes := ![1, 1, 1024]
  wf := gather_S64x256x1024_S64x512x1_S64x512x1024_2_1_0_0_1_2_111024_wf

class Facts : Prop extends Facts₀ where

variable [Facts]
-- ==== Proof.Merge.lean ====
/-
  The mathematics of the merge, with no program in sight.

  For one character position (b, s) the kernel multiplies a one-hot row of 256 coefficients — coefficient w is 1 when
  w equals the position's word index and 0 otherwise — into the 256 word rows; the reference reads the word row the
  index names. On the extended reals a product with 0 is 0 whatever the other factor, so the one-hot sum is the named
  row exactly, with no appeal to finiteness (sum_hot). Likewise the kernel's final product with the validity bit read as
  a number (0 or 1) is the reference's choice between the blended feature and zero (mul_bit). What both need is that the
  word index, read as a signed integer, is a row of the table: 0 ≤ index < 256 (InRange). Under it the reference's
  wrap-around of negative indices does nothing and its in-bounds mask is set (noWrap, inBounds), and the row the gather
  clamps to is the index itself (row_val).

  mergedAt is the common value: where the position is valid, (word row) · rate + (character row) · (1 − rate), with
  rate one of two literals chosen by the head bit; zero elsewhere.
-/
import Idealize.ShloMosaic.PureOps.Ideal
import Idealize.ShloMosaic.Lib.ValueIdx
import Idealize.ShloMosaic.Lib.StableHlo.Predicate
import Idealize.ShloMosaic.Lib.ReduceAll
import Idealize.ShloMosaic.PureOps.Ideal.Laws

noncomputable section

open scoped BigOperators
open Idealize.ShloMosaic Idealize.ShloMosaic.ValueIdx

namespace Cert.Merge

/-! ## Word indices that are rows of the table -/

/-- The word index, read as a signed integer, is a row of the 256-row word table. -/
def InRange (word : BitVec 32) : Prop := 0 ≤ word.toInt ∧ word.toInt < 256

/-- Such a word is small and reads the same signed and unsigned. -/
theorem InRange.toNat_lt {word : BitVec 32} (h : InRange word) : word.toNat < 256 ∧ word.toInt = (word.toNat : ℤ) := by
  have hlt := word.isLt
  obtain ⟨h0, h1⟩ := h
  by_cases hc : 2 * word.toNat < 2 ^ 32
  · rw [BitVec.toInt_eq_toNat_cond, if_pos hc] at h0 h1 ⊢
    constructor <;> omega
  · rw [BitVec.toInt_eq_toNat_cond, if_neg hc] at h0 h1
    exfalso; omega

/-- The row a word names: its signed value, kept inside the table (what a clamped gather reads). -/
def row (word : BitVec 32) : Fin 256 := ⟨min word.toInt.toNat 255, by omega⟩

/-- For a word in range the clamp does nothing. -/
theorem row_val {word : BitVec 32} (h : InRange word) : (row word).val = word.toNat := by
  obtain ⟨hl, he⟩ := h.toNat_lt
  show min word.toInt.toNat 255 = word.toNat
  omega

/-- A word in range is not negative: the reference's wrap-around of negative indices leaves it alone. -/
theorem noWrap {word : BitVec 32} (h : InRange word) :
    Scalar.select (IntOp.cmpi .slt word 0#32) (IntOp.addi word 256#32) word = word := by
  obtain ⟨hl, _⟩ := h.toNat_lt
  have hz : IntOp.cmpi .slt word 0#32 = 0#1 :=
    eq_zero_of_ne_one fun e => by
      have := (StableHlo.Predicate.slt_iff_toNat (a := word) (b := 0#32) (by omega) (by decide)).mp e
      simp at this
  rw [hz, select_zero]

/-- A word in range passes the reference's in-bounds test, 0 ≤ word ≤ 255. -/
theorem inBounds {word : BitVec 32} (h : InRange word) :
    IntOp.andi (IntOp.cmpi .sge word 0#32) (IntOp.cmpi .sle word 255#32) = 1#1 := by
  obtain ⟨hl, _⟩ := h.toNat_lt
  refine IntOp.andi_eq_one.mpr ⟨?_, ?_⟩
  · exact (StableHlo.Predicate.sge_iff_toNat (a := word) (b := 0#32) (by omega) (by decide)).mpr (by simp)
  · exact (StableHlo.Predicate.sle_iff_toNat (a := word) (b := 255#32) (by omega) (by decide)).mpr (by
      show word.toNat ≤ (255#32).toNat
      have : (255#32).toNat = 255 := by decide
      omega)

/-- The two comparisons a precondition states of a word index say it is in range. -/
theorem inRange_of_cmp {word : BitVec 32} (hge : IntOp.cmpi .sge word 0#32 = 1#1) (hlt : IntOp.cmpi .slt word 256#32 = 1#1) :
    InRange word := by
  have hge' : BitVec.ofBool ((0#32).sle word) = 1#1 := hge
  have hlt' : BitVec.ofBool (word.slt 256#32) = 1#1 := hlt
  rw [StableHlo.Predicate.ofBool_eq_one_iff] at hge' hlt'
  simp only [BitVec.sle, BitVec.slt, decide_eq_true_eq] at hge' hlt'
  have e0 : (0#32).toInt = 0 := by decide
  have e256 : (256#32).toInt = 256 := by decide
  exact ⟨by omega, by omega⟩

/-! ## The one-hot row -/

/-- Coefficient `w` of the one-hot row of `word`: the bit "w equals word", widened and read as a number. -/
def hot (word : BitVec 32) (w : Fin 256) : EReal :=
  ((((IntOp.cmpi .eq (BitVec.ofNat 32 w.val) word).setWidth 32).toInt : ℝ) : EReal)

/-- It is 1 at the row the word names and 0 elsewhere. -/
theorem hot_eq {word : BitVec 32} (h : InRange word) (w : Fin 256) : hot word w = if w = row word then 1 else 0 := by
  obtain ⟨hl, _⟩ := h.toNat_lt
  have hrow := row_val h
  have hw256 := w.isLt
  unfold hot
  by_cases hw : BitVec.ofNat 32 w.val = word
  · have hwr : w = row word := Fin.ext (by
      rw [hrow, ← hw, BitVec.toNat_ofNat]; omega)
    have h1 : (BitVec.setWidth 32 (1#1)).toInt = 1 := by decide
    rw [StableHlo.Predicate.cmpi_eq_iff.mpr hw, if_pos hwr, h1]
    simp
  · have hwr : ¬ w = row word := fun e => hw (by
      apply BitVec.eq_of_toNat_eq
      rw [BitVec.toNat_ofNat, e, hrow]; omega)
    have h0 : (BitVec.setWidth 32 (0#1)).toInt = 0 := by decide
    rw [eq_zero_of_ne_one (fun e => hw (StableHlo.Predicate.cmpi_eq_iff.mp e)), if_neg hwr, h0]
    simp

/-- THE ONE-HOT SUM: the row of coefficients times any 256 extended reals sums to the named one, since on the
    extended reals 0 · x = 0 for every x. -/
theorem sum_hot {word : BitVec 32} (h : InRange word) (f : Fin 256 → EReal) :
    ∑ w : Fin 256, hot word w * f w = f (row word) := by
  simp only [hot_eq h, ite_mul, one_mul, zero_mul, Finset.sum_ite_eq', Finset.mem_univ, if_true]

/-! ## The validity bit -/

/-- A product with the validity bit read as a number is the choice between the factor and zero. -/
theorem mul_bit (x : EReal) (v : BitVec 1) :
    x * (((v.toNat : ℝ)) : EReal) = Scalar.select v x (Ideal.ofBits .f32 0x00000000#32) := by
  rcases BitVec.eq_zero_or_eq_one v with rfl | rfl
  · rw [select_zero, Ideal.ofBits_zero_f32]; simp
  · rw [select_one]; simp

/-! ## The common value -/

/-- The blending rate of a position: one literal on the first character of a word, another on the rest. -/
def rate (hd : BitVec 1) : EReal :=
  Scalar.select hd (Ideal.ofBits .f32 0x3F6147AE#32) (Ideal.ofBits .f32 0x3F333333#32)

/-- The merged feature at batch `b`, character `s`, channel `h`. -/
def mergedAt (ow : (⟨3, ![64, 256, 1024]⟩ : Shape).Idx → EReal) (oc : (⟨3, ![64, 512, 1024]⟩ : Shape).Idx → EReal)
    (idx : (⟨2, ![64, 512]⟩ : Shape).Idx → BitVec 32) (head valid : (⟨2, ![64, 512]⟩ : Shape).Idx → BitVec 1)
    (b : Fin 64) (s : Fin 512) (h : Fin 1024) : EReal :=
  Scalar.select (valid (ix2 b s))
    (ow (ix3 b (row (idx (ix2 b s))) h) * rate (head (ix2 b s))
      + oc (ix3 b s h) * (Ideal.ofBits .f32 0x3F800000#32 - rate (head (ix2 b s))))
    (Ideal.ofBits .f32 0x00000000#32)

/-- The whole merged array. -/
def merged (ow : (⟨3, ![64, 256, 1024]⟩ : Shape).Idx → EReal) (oc : (⟨3, ![64, 512, 1024]⟩ : Shape).Idx → EReal)
    (idx : (⟨2, ![64, 512]⟩ : Shape).Idx → BitVec 32) (head valid : (⟨2, ![64, 512]⟩ : Shape).Idx → BitVec 1) :
    (⟨3, ![64, 512, 1024]⟩ : Shape).Idx → EReal :=
  fun j => mergedAt ow oc idx head valid ⟨(j 0).val, (j 0).isLt⟩ ⟨(j 1).val, (j 1).isLt⟩ ⟨(j 2).val, (j 2).isLt⟩

theorem merged_ix3 (ow : (⟨3, ![64, 256, 1024]⟩ : Shape).Idx → EReal) (oc : (⟨3, ![64, 512, 1024]⟩ : Shape).Idx → EReal)
    (idx : (⟨2, ![64, 512]⟩ : Shape).Idx → BitVec 32) (head valid : (⟨2, ![64, 512]⟩ : Shape).Idx → BitVec 1)
    (b : Fin 64) (s : Fin 512) (h : Fin 1024) :
    merged ow oc idx head valid (ix3 b s h) = mergedAt ow oc idx head valid b s h := rfl

/-- THE KERNEL'S POINT: the one-hot sum blended and then multiplied by the validity bit is the common value's form. -/
theorem kernel_point {word : BitVec 32} (h : InRange word) (f : Fin 256 → EReal) (r o one : EReal) (v : BitVec 1) :
    ((∑ w : Fin 256, hot word w * f w) * r + o * (one - r)) * (((v.toNat : ℝ)) : EReal)
      = Scalar.select v (f (row word) * r + o * (one - r)) (Ideal.ofBits .f32 0x00000000#32) := by
  rw [sum_hot h, mul_bit]

end Cert.Merge

end
-- ==== Proof.LibTakeAlong.lean ====
/-
  A BATCHED TAKE ALONG THE MIDDLE AXIS, READ AT AN INDEX (generic in the sizes).

  jnp's `take_along_axis(x, idx[..., None], axis=1)` of an operand x : [B, N, H] at indices idx : [B, S, 1] lowers to a
  gather whose batch axis 0 of the operand is paired with batch axis 0 of the indices, whose operand axis 1 is collapsed
  and addressed by the one component of the start index, and whose operand axis 2 is the slice (offset) axis of full
  extent H. So result element (b, s, h) is the operand at (b, r, h), where r is the start index idx[b, s, 0] read as a
  signed integer and clamped into [0, N − 1], as every gather clamps its start indices.
-/
import Idealize.ShloMosaic.Lib.ValueIdx

noncomputable section

namespace Idealize.ShloMosaic.ValueIdx

open Idealize.ShloMosaic

section TakeAlong
variable {α : Type}

/-- Those dimension numbers for an operand [B, N, H], start indices [B, S, 1] and a result [B, S, H]; their conditions
    `wf` are decided on a program's literal shapes. -/
abbrev takeAlongDims (B N S H : Nat)
    (wf : GatherDims.WF ⟨3, ![B, N, H]⟩ ⟨3, ![B, S, 1]⟩ ⟨3, ![B, S, H]⟩ [2] [1] [0] [1] [0] 2 ![1, 1, H]) :
    GatherDims ⟨3, ![B, N, H]⟩ ⟨3, ![B, S, 1]⟩ ⟨3, ![B, S, H]⟩ where
  offsetDims := [2]
  collapsedSliceDims := [1]
  operandBatchingDims := [0]
  startIndicesBatchingDims := [0]
  startIndexMap := [1]
  indexVectorDim := 2
  sliceSizes := ![1, 1, H]
  wf := wf

private theorem ne10 : (1 : Fin 3) ≠ 0 := by decide
private theorem ne20 : (2 : Fin 3) ≠ 0 := by decide
private theorem ne21 : (2 : Fin 3) ≠ 1 := by decide

variable {B N S H w : Nat}
  (wf : GatherDims.WF ⟨3, ![B, N, H]⟩ ⟨3, ![B, S, 1]⟩ ⟨3, ![B, S, H]⟩ [2] [1] [0] [1] [0] 2 ![1, 1, H])
  (idx : IVec ⟨3, ![B, S, 1]⟩ w) (b : Fin B) (s : Fin S) (h : Fin H)

/-- On the batch axis the operand index is the result's batch coordinate: no start, no offset. -/
theorem takeAlong_axis0 :
    ((takeAlongDims B N S H wf).operandIdx (ix3 b s h) idx (0 : Fin 3)).val = b.val := by
  show (takeAlongDims B N S H wf).start (ix3 b s h) idx (0 : Fin 3) + (takeAlongDims B N S H wf).batchCoord (ix3 b s h) (0 : Fin 3)
    + (takeAlongDims B N S H wf).offCoord (ix3 b s h) (0 : Fin 3) = _
  have hmem : (0 : Fin 3) ∈ (takeAlongDims B N S H wf).operandBatchingDims := List.mem_singleton.mpr rfl
  rw [GatherDims.start_batching _ _ _ _ hmem,
    GatherDims.offCoord_eq_zero _ _ _ (fun hk => ((GatherDims.mem_sKept _ _).mp hk).2 hmem)]
  simp only [Nat.zero_add, Nat.add_zero]
  unfold GatherDims.batchCoord
  rw [dif_pos hmem]
  rfl

/-- On the collapsed axis it is the start index's one component, read signed and clamped into the axis. -/
theorem takeAlong_axis1 :
    ((takeAlongDims B N S H wf).operandIdx (ix3 b s h) idx (1 : Fin 3)).val
      = min (idx (ix3 b s (0 : Fin 1))).toInt.toNat (N - 1) := by
  show (takeAlongDims B N S H wf).start (ix3 b s h) idx (1 : Fin 3) + (takeAlongDims B N S H wf).batchCoord (ix3 b s h) (1 : Fin 3)
    + (takeAlongDims B N S H wf).offCoord (ix3 b s h) (1 : Fin 3) = _
  have hmem : (1 : Fin 3) ∈ (takeAlongDims B N S H wf).startIndexMap := List.mem_singleton.mpr rfl
  rw [GatherDims.batchCoord_eq_zero _ _ _ (fun hk => ne10 (List.mem_singleton.mp hk)),
    GatherDims.offCoord_eq_zero _ _ _ (fun hk => ((GatherDims.mem_sKept _ _).mp hk).1 (List.mem_singleton.mpr rfl))]
  simp only [Nat.add_zero]
  unfold GatherDims.start
  rw [dif_pos hmem]
  have hsi : (takeAlongDims B N S H wf).siIdx (ix3 b s h) ⟨List.idxOf (1 : Fin 3) (takeAlongDims B N S H wf).startIndexMap,
      List.idxOf_lt_length_iff.2 hmem⟩ = ix3 b s (0 : Fin 1) := by
    funext c; refine Fin.ext ?_
    match c with
    | ⟨0, _⟩ => rfl
    | ⟨1, _⟩ => rfl
    | ⟨2, _⟩ => rfl
  rw [hsi]
  rfl

/-- On the slice axis it is the result's channel coordinate. -/
theorem takeAlong_axis2 :
    ((takeAlongDims B N S H wf).operandIdx (ix3 b s h) idx (2 : Fin 3)).val = h.val := by
  show (takeAlongDims B N S H wf).start (ix3 b s h) idx (2 : Fin 3) + (takeAlongDims B N S H wf).batchCoord (ix3 b s h) (2 : Fin 3)
    + (takeAlongDims B N S H wf).offCoord (ix3 b s h) (2 : Fin 3) = _
  have hs : (takeAlongDims B N S H wf).start (ix3 b s h) idx (2 : Fin 3) = 0 := by
    unfold GatherDims.start
    rw [dif_neg (fun hk => ne21 (List.mem_singleton.mp hk))]
  rw [hs, GatherDims.batchCoord_eq_zero _ _ _ (fun hk => ne20 (List.mem_singleton.mp hk))]
  simp only [Nat.zero_add]
  unfold GatherDims.offCoord
  rw [dif_pos ((GatherDims.mem_sKept _ _).mpr
    ⟨fun hk => ne21 (List.mem_singleton.mp hk), fun hk => ne20 (List.mem_singleton.mp hk)⟩)]
  rfl

/-- THE TAKE READ AT (b, s, h): the operand's row `idx[b, s, 0]` (signed, clamped into [0, N − 1]) of batch b, at
    channel h. -/
theorem gather_takeAlong_apply (hN : 0 < N) (x : (⟨3, ![B, N, H]⟩ : Shape).Idx → α) :
    Host.gather (takeAlongDims B N S H wf) x idx (ix3 b s h)
      = x (ix3 b ⟨min (idx (ix3 b s (0 : Fin 1))).toInt.toNat (N - 1), by omega⟩ h) := by
  unfold Host.gather
  congr 1
  funext a
  refine Fin.ext ?_
  match a with
  | ⟨0, _⟩ => exact takeAlong_axis0 wf idx b s h
  | ⟨1, _⟩ => exact takeAlong_axis1 wf idx b s h
  | ⟨2, _⟩ => exact takeAlong_axis2 wf idx b s h

end TakeAlong

end Idealize.ShloMosaic.ValueIdx

end
-- ==== Proof.LibAllOnes.lean ====
/-
  A REDUCTION BY `and` OF ALL ONES IS ONE (the converse of reading a `jnp.all` back).

  A one-operand `stablehlo.reduce` of an `i1` array by `and`, started from an initial value that is 1, is 1 at every
  result index whose contributing operand elements are all 1 — in particular everywhere when the whole operand is 1.
  (The library's `Host.reduce_andi_eq_one` is the other direction: a result that is 1 had only 1s.)
-/
import Idealize.ShloMosaic.Lib.ReduceAll

namespace Idealize.ShloMosaic

namespace IntOp

/-- A left fold by `and` from 1 over words that are all 1 is 1. -/
theorem foldl_andi_of_forall_eq_one {ι : Type} (f : ι → BitVec 1) :
    ∀ l : List ι, (∀ n ∈ l, f n = 1#1) → l.foldl (fun r n => andi r (f n)) 1#1 = 1#1
  | [], _ => rfl
  | a :: l, h => by
    have h11 : andi (1#1) (1#1) = 1#1 := by decide
    rw [List.foldl_cons, h a (List.mem_cons_self ..), h11]
    exact foldl_andi_of_forall_eq_one f l fun n hn => h n (List.mem_cons_of_mem _ hn)

end IntOp

namespace Host

variable {s t u : Shape} {axes : List (Fin s.rank)}

/-- A `stablehlo.reduce` by `and` from an initial 1 is 1 at `j` when every operand element that reduces into `j` is 1. -/
theorem reduce_andi_of_forall_eq_one (x : s.Idx → BitVec 1) (init : u.Idx → BitVec 1) (h : s.ReducesTo axes t)
    (hu : 0 < u.numel) (j : t.Idx) (hinit : ∀ k, init k = 1#1) (hx : ∀ i, h.drop i = j → x i = 1#1) :
    Host.reduce IntOp.andi x init h hu j = 1#1 := by
  rw [Host.reduce_eq_foldl, hinit]
  refine IntOp.foldl_andi_of_forall_eq_one x _ fun n hn => hx n ?_
  simpa using (List.mem_filter.mp hn).2

end Host

end Idealize.ShloMosaic
-- ==== Proof.RefValue.lean ====
/-
  The reference's result is the merged array.

  Read one operation at a time, the reference computes at (b, s, h): the word index, wrapped around if negative; an
  in-bounds mask for it; the gathered word row where the mask is set and a NaN fill elsewhere; the blend with the
  character row at the position's rate; and finally the choice between that and zero by the validity bit. For word
  indices that are rows of the table the wrap-around does nothing and the mask is set everywhere (Merge.lean), the
  batched take reads row `idx[b, s]` of batch b (LibTakeAlong.lean), and what is left is mergedAt, term for term.
-/
import proofs.«409317_j25099788878439_1_alg».proof.Proof.RefRead
import proofs.«409317_j25099788878439_1_alg».proof.Proof.Merge
import proofs.«409317_j25099788878439_1_alg».proof.Proof.LibTakeAlong
import proofs.«409317_j25099788878439_1_alg».proof.Proof.LibAllOnes

noncomputable section

namespace Cert.ReferenceIdeal.RefValue

open Cert.ReferenceIdeal Cert.ReferenceIdeal.Gen Cert.ReferenceIdeal.ReadP
open Idealize.ShloMosaic Idealize.ShloMosaic.ValueIdx Cert.Merge

variable (x0 : FVec Ideal S64x256x1024 .f32) (x1 : FVec Ideal S64x512x1024 .f32)
  (x2 : IVec S64x512 32) (x3 x4 : IVec S64x512 1)

/-! ## The composed index maps at a position -/

theorem pos_of_col (b : Fin 64) (s : Fin 512) (z : Fin 1) : idx_main_v0 (ix3 b s z) = ix2 b s :=
  funext fun a => match a with | ⟨0, _⟩ => rfl | ⟨1, _⟩ => rfl
theorem pos_of_rate_mul (b : Fin 64) (s : Fin 512) (h : Fin 1024) : idx_main_v3 (idx_main_v5 (ix3 b s h)) = ix2 b s :=
  funext fun a => match a with | ⟨0, _⟩ => rfl | ⟨1, _⟩ => rfl
theorem pos_of_rate_sub (b : Fin 64) (s : Fin 512) (h : Fin 1024) : idx_main_v3 (idx_main_v9 (ix3 b s h)) = ix2 b s :=
  funext fun a => match a with | ⟨0, _⟩ => rfl | ⟨1, _⟩ => rfl
theorem pos_of_valid (b : Fin 64) (s : Fin 512) (h : Fin 1024) : idx_main_v12 (idx_main_call2_v0 (ix3 b s h)) = ix2 b s :=
  funext fun a => match a with | ⟨0, _⟩ => rfl | ⟨1, _⟩ => rfl

/-! ## The word index and its mask -/

/-- The wrapped index is the index, for indices in range. -/
theorem wrapped (hin : ∀ i, InRange (x2 i)) (i3 : S64x512x1.Idx) :
    val_main_call0_v4 (F := Ideal) x2 i3 = x2 (idx_main_v0 i3) := by
  rw [val_main_call0_v4_apply, val_main_call0_v1_apply, val_main_call0_v3_apply, val_main_v0_apply, val_main_call0_v0_apply,
    val_main_call0_c_apply, val_main_call0_v2_apply, val_main_call0_c_0_apply]
  exact noWrap (hin _)

/-- Every index passes the in-bounds test. -/
theorem mask_elt (hin : ∀ i, InRange (x2 i)) (i3 : S64x512x1.Idx) : val_main_call0_v10 (F := Ideal) x2 i3 = 1#1 := by
  rw [val_main_call0_v10_apply, val_main_call0_v6_apply, val_main_call0_v9_apply, wrapped x2 hin, val_main_call0_v5_apply,
    val_main_call0_c_2_apply, val_main_call0_v8_apply, val_main_call0_v7_apply, val_main_call0_c_1_apply]
  exact inBounds (hin _)

/-- So the mask, reduced over the unit axis, is set at every position. -/
theorem mask_pos (hin : ∀ i, InRange (x2 i)) (i2 : S64x512.Idx) : val_main_call0_v11 (F := Ideal) x2 i2 = 1#1 := by
  unfold val_main_call0_v11
  exact Host.reduce_andi_of_forall_eq_one _ _ _ _ _ (fun _ => rfl) (fun i _ => mask_elt x2 hin i)

/-! ## The gathered word row -/

/-- The take reads row `idx[b, s]` of batch b. -/
theorem taken (hin : ∀ i, InRange (x2 i)) (b : Fin 64) (s : Fin 512) (h : Fin 1024) :
    val_main_v1 (F := Ideal) x0 x2 (ix3 b s h) = x0 (ix3 b (row (x2 (ix2 b s))) h) := by
  rw [val_main_v1_apply, val_main_call0_v13_apply, mask_pos x2 hin, select_one]
  unfold val_main_call0_v12
  show Host.gather (takeAlongDims 64 256 512 1024 Facts₀.gather_S64x256x1024_S64x512x1_S64x512x1024_2_1_0_0_1_2_111024_wf) x0
    (val_main_call0_v4 (F := Ideal) x2) (ix3 b s h) = _
  rw [gather_takeAlong_apply _ _ _ _ _ (by decide) x0]
  have e : val_main_call0_v4 (F := Ideal) x2 (ix3 b s (0 : Fin 1)) = x2 (ix2 b s) := by rw [wrapped x2 hin, pos_of_col]
  refine congrArg x0 (congrArg (fun r => ix3 b r h) (Fin.ext ?_))
  show min (val_main_call0_v4 (F := Ideal) x2 (ix3 b s (0 : Fin 1))).toInt.toNat (256 - 1) = min (x2 (ix2 b s)).toInt.toNat 255
  rw [e]

/-! ## The rate -/

/-- The rate column at a position is the literal its head bit chooses. -/
theorem rate_col (i3 : S64x512x1.Idx) : val_main_v4 (F := Ideal) x3 i3 = rate (x3 (idx_main_v3 i3)) := by
  rw [val_main_v4_apply, val_main_v3_apply, val_main_v2_apply, val_main_call1_v0_apply, val_main_cst_apply,
    val_main_call1_v1_apply, val_main_cst_0_apply]
  rfl

/-! ## The result -/

/-- The reference's result at (b, s, h) is the merged feature there. -/
theorem result_at (hin : ∀ i, InRange (x2 i)) (b : Fin 64) (s : Fin 512) (h : Fin 1024) :
    val_main_v13 (F := Ideal) x0 x1 x2 x3 x4 (ix3 b s h) = mergedAt x0 x1 x2 x3 x4 b s h := by
  rw [val_main_v13_apply, val_main_call2_v0_apply, val_main_v12_apply, pos_of_valid, val_main_call2_v1_apply, val_main_cst_2_apply,
    val_main_v11_apply, val_main_v6_apply, val_main_v10_apply, taken x0 x2 hin, val_main_v5_apply, val_main_v9_apply,
    val_main_v8_apply, val_main_v7_apply, val_main_cst_1_apply, rate_col, pos_of_rate_mul]
  rfl

/-- The reference's result array is the merged array. -/
theorem result_eq (hin : ∀ i, InRange (x2 i)) : val_main_v13 (F := Ideal) x0 x1 x2 x3 x4 = merged x0 x1 x2 x3 x4 := by
  funext j
  obtain ⟨b, s, h, rfl⟩ : ∃ (b : Fin 64) (s : Fin 512) (h : Fin 1024), j = ix3 b s h := ⟨j 0, j 1, j 2, eq_ix3 j⟩
  rw [merged_ix3]
  exact result_at x0 x1 x2 x3 x4 hin b s h

end Cert.ReferenceIdeal.RefValue

end
-- ==== Proof.LibColumn.lean ====
/-
  KEEPDIMS COLUMNS READ AT AN INDEX (generic in the sizes).

  A keepdims column [a, 1] broadcast to [a, b] (a per-row scalar laid across the row) reads, at (p, q), the column's
  entry of row p. (The library's Lib/ValueLayout.lean has the row form [1, b] → [a, b].) And an [a, b] array given a
  trailing unit axis, [a, b, 1], reads at (p, q, 0) the array at (p, q).
-/
import Idealize.ShloMosaic.Lib.ValueIdx
import Idealize.ShloMosaic.Lib.Pipeline.Value

noncomputable section

namespace Idealize.ShloMosaic.ValueIdx

open Idealize.ShloMosaic

/-- An `[a, 1]` column broadcast to `[a, b]` reads, at `(p, q)`, the column at `(p, 0)`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else q.val
    rw [if_pos rfl]

/-- An `[a, b]` array cast to `[a, b, 1]` (a trailing unit axis added: `x[..., None]`, or a reshape to keepdims columns)
    reads, at `(p, q, z)`, the operand at `(p, q)`. -/
theorem shapeCast_ab_ab1_apply {α : Type} {a b : ℕ} (x : (⟨2, ![a, b]⟩ : Shape).Idx → α)
    (h : (⟨2, ![a, b]⟩ : Shape).ShapeCasts ⟨3, ![a, b, 1]⟩) (p : Fin a) (q : Fin b) (z : Fin 1) :
    shapeCast ⟨3, ![a, b, 1]⟩ x h (ix3 p q z) = x (ix2 p q) :=
  shapeCast_apply x h _ _ (by
    have hz : z.val = 0 := by omega
    rw [Shape.rowMajor_val_two, Shape.rowMajor_val_three]
    show p.val * b + q.val = (p.val * b + q.val) * 1 + z.val
    rw [hz, Nat.mul_one, Nat.add_zero])

end Idealize.ShloMosaic.ValueIdx

end
-- ==== Proof.KernelPoint.lean ====
/-
  What the kernel body stores, read at one element.

  The body's stored value is one pure term of its five loaded blocks: the word block [1, 256, 1024], the index, rate
  and validity columns [1, 512, 1] and the character block [1, 512, 1024]. At element (0, s, h) it is
  ((one-hot row of the index at s) · (column h of the word block)) · rate_s + char_(s,h) · (1 − rate_s), times valid_s:
  the matrix product into a zero accumulator is the plain sum over the 256 word rows, the comparison of the lane index
  with the broadcast word index gives the one-hot coefficient, and the three columns are read at row s.
-/
import proofs.«409317_j25099788878439_1_alg».proof.Proof.Gen.KernelIdeal.Skeleton
import proofs.«409317_j25099788878439_1_alg».proof.Proof.Merge
import proofs.«409317_j25099788878439_1_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Point

open Cert.KernelIdeal Cert.KernelIdeal.Gen
open Idealize.ShloMosaic Idealize.ShloMosaic.ValueIdx Cert.Merge

/-! ## The matrix product at an element: a sum over the 256 word rows -/

theorem lhs_mm_0 (i : S512x1024.Idx) (q : dot_S512x256_S256x1024_S512x1024_1_0_0_1_n_n.contr.Idx) :
    (dot_S512x256_S256x1024_S512x1024_1_0_0_1_n_n.lhsIdx i q 0).val = (i 0).val := by
  unfold DotDims.lhsIdx
  rw [dif_neg (show ¬(0 : Fin S512x256.rank) ∈ dot_S512x256_S256x1024_S512x1024_1_0_0_1_n_n.lhsBatch by decide),
    dif_pos (show (0 : Fin S512x256.rank) ∈ dot_S512x256_S256x1024_S512x1024_1_0_0_1_n_n.lhsNonContracting by decide)]
  rfl
theorem lhs_mm_1 (i : S512x1024.Idx) (q : dot_S512x256_S256x1024_S512x1024_1_0_0_1_n_n.contr.Idx) :
    (dot_S512x256_S256x1024_S512x1024_1_0_0_1_n_n.lhsIdx i q 1).val = (q ⟨0, by decide⟩).val :=
  dot_S512x256_S256x1024_S512x1024_1_0_0_1_n_n.lhsIdx_val_of_single rfl i q
theorem rhs_mm_0 (i : S512x1024.Idx) (q : dot_S512x256_S256x1024_S512x1024_1_0_0_1_n_n.contr.Idx) :
    (dot_S512x256_S256x1024_S512x1024_1_0_0_1_n_n.rhsIdx i q 0).val = (q ⟨0, by decide⟩).val :=
  dot_S512x256_S256x1024_S512x1024_1_0_0_1_n_n.rhsIdx_val_of_single rfl i q
theorem rhs_mm_1 (i : S512x1024.Idx) (q : dot_S512x256_S256x1024_S512x1024_1_0_0_1_n_n.contr.Idx) :
    (dot_S512x256_S256x1024_S512x1024_1_0_0_1_n_n.rhsIdx i q 1).val = (i 1).val := by
  unfold DotDims.rhsIdx
  rw [dif_neg (show ¬(1 : Fin S256x1024.rank) ∈ dot_S512x256_S256x1024_S512x1024_1_0_0_1_n_n.rhsBatch by decide),
    dif_pos (show (1 : Fin S256x1024.rank) ∈ dot_S512x256_S256x1024_S512x1024_1_0_0_1_n_n.rhsNonContracting by decide)]
  rfl

/-- The [512, 256] × [256, 1024] product into the zero accumulator, at (s, h): the sum over the contracted axis. -/
theorem mm_apply (lhs : FVec Ideal S512x256 .bf16) (rhs : FVec Ideal S256x1024 .bf16) (s : Fin 512) (h : Fin 1024) :
    matmul dot_S512x256_S256x1024_S512x1024_1_0_0_1_n_n none lhs rhs (constant (F := Ideal) S512x1024 .f32 0x00000000#32) (ix2 s h)
      = ∑ w : Fin 256, lhs (ix2 s w) * rhs (ix2 w h) := by
  refine (Ideal.matmul_constant_zero_apply dot_S512x256_S256x1024_S512x1024_1_0_0_1_n_n none lhs rhs (ix2 s h)).trans ?_
  rw [← Equiv.sum_comp (contrEquiv1 dot_S512x256_S256x1024_S512x1024_1_0_0_1_n_n 256 rfl rfl).symm]
  refine Finset.sum_congr rfl fun k _ => ?_
  have hk := contrEquiv1_symm_val dot_S512x256_S256x1024_S512x1024_1_0_0_1_n_n 256 rfl rfl k
  have el : dot_S512x256_S256x1024_S512x1024_1_0_0_1_n_n.lhsIdx (ix2 s h)
      ((contrEquiv1 dot_S512x256_S256x1024_S512x1024_1_0_0_1_n_n 256 rfl rfl).symm k) = ix2 s k := funext fun a => Fin.ext (by
    match a with
    | ⟨0, _⟩ => exact lhs_mm_0 _ _
    | ⟨1, _⟩ => exact (lhs_mm_1 _ _).trans hk)
  have er : dot_S512x256_S256x1024_S512x1024_1_0_0_1_n_n.rhsIdx (ix2 s h)
      ((contrEquiv1 dot_S512x256_S256x1024_S512x1024_1_0_0_1_n_n 256 rfl rfl).symm k) = ix2 k h := funext fun a => Fin.ext (by
    match a with
    | ⟨0, _⟩ => exact (rhs_mm_0 _ _).trans hk
    | ⟨1, _⟩ => exact rhs_mm_1 _ _)
  rw [el, er]

/-! ## The stored value at an element -/

variable (v0 : Vec Ideal S1x256x1024 .f32) (v3 : Vec Ideal S1x512x1 .i32) (v12 : Vec Ideal S1x512x1024 .f32)
  (v14 v23 : Vec Ideal S1x512x1 .f32)

/-- The one-hot coefficient: the lane index compared with the row's word index, widened and read as a number. -/
theorem onehot_at (s : Fin 512) (w : Fin 256) :
    (sitofp .f32 (extui 32 (cmpi .eq (iota .tc S512x256 32 [1] iota_S512x256_d1_w32)
        (broadcastTo S512x256 (shapeCast S512x1 v3 shapeCasts_S1x512x1_S512x1) broadcasts_S512x1_S512x256)) natLt_1_32)
      : FVec Ideal S512x256 .f32) (ix2 s w) = hot (v3 (ix3 (0 : Fin 1) s (0 : Fin 1))) w := by
  show ((((IntOp.cmpi .eq (iota .tc S512x256 32 [1] iota_S512x256_d1_w32 (ix2 s w))
      (broadcastTo S512x256 (shapeCast S512x1 v3 shapeCasts_S1x512x1_S512x1) broadcasts_S512x1_S512x256 (ix2 s w))).setWidth 32).toInt : ℝ) : EReal) = _
  rw [iota_single_apply, broadcastTo_a1_ab_apply, shapeCast_1ab_ab_apply]
  rfl

theorem pay_at (s : Fin 512) (h : Fin 1024) :
    k0_pay1 (F := Ideal) v0 v3 v12 v14 v23 (ix3 (0 : Fin 1) s h)
      = ((∑ w : Fin 256, hot (v3 (ix3 (0 : Fin 1) s (0 : Fin 1))) w * v0 (ix3 (0 : Fin 1) w h)) * v14 (ix3 (0 : Fin 1) s (0 : Fin 1))
          + v12 (ix3 (0 : Fin 1) s h) * (Ideal.ofBits .f32 0x3F800000#32 - v14 (ix3 (0 : Fin 1) s (0 : Fin 1))))
        * v23 (ix3 (0 : Fin 1) s (0 : Fin 1)) := by
  unfold k0_pay1
  rw [shapeCast_ab_1ab_apply]
  simp only [mulf_apply, addf_apply]
  rw [mm_apply]
  simp only [broadcastTo_a1_ab_apply, subf_apply, broadcast_apply, shapeCast_1ab_ab_apply, truncf_apply]
  rw [Finset.sum_congr rfl (fun w _ => by rw [onehot_at v3 s w])]
  rfl

/-- THE POINT: when the five blocks are slab `t` of the five arrays, the stored value at (0, s, h) is the merged
    feature at (t, s, h): the one-hot sum picks the named word row, and the product with the validity number is the choice
    between the blend and zero. -/
theorem point_eq (ow : FVec Ideal S64x256x1024 .f32) (oc : FVec Ideal S64x512x1024 .f32) (idx : IVec S64x512 32)
    (head valid : IVec S64x512 1) (hin : ∀ i, InRange (idx i)) (t : Fin 64)
    (x0 : Vec Ideal S1x256x1024 .f32) (x1 : Vec Ideal S1x512x1024 .f32) (x2 : Vec Ideal S1x512x1 .i32)
    (x3 x4 : Vec Ideal S1x512x1 .f32)
    (h0 : ∀ (w : Fin 256) (h : Fin 1024), x0 (ix3 (0 : Fin 1) w h) = ow (ix3 t w h))
    (h1 : ∀ (s : Fin 512) (h : Fin 1024), x1 (ix3 (0 : Fin 1) s h) = oc (ix3 t s h))
    (h2 : ∀ s : Fin 512, x2 (ix3 (0 : Fin 1) s (0 : Fin 1)) = idx (ix2 t s))
    (h3 : ∀ s : Fin 512, x3 (ix3 (0 : Fin 1) s (0 : Fin 1)) = rate (head (ix2 t s)))
    (h4 : ∀ s : Fin 512, x4 (ix3 (0 : Fin 1) s (0 : Fin 1)) = (((valid (ix2 t s)).toNat : ℝ) : EReal))
    (s : Fin 512) (h : Fin 1024) :
    k0_pay1 (F := Ideal) x0 x2 x1 x3 x4 (ix3 (0 : Fin 1) s h) = mergedAt ow oc idx head valid t s h := by
  rw [pay_at, h1, h2, h3, h4, Finset.sum_congr rfl (fun w _ => by rw [h0 w h])]
  exact kernel_point (hin _) (fun w => ow (ix3 t w h)) _ _ _ _

end Cert.KernelIdeal.Point

end
-- ==== Proof.KernelArray.lean ====
/-
  From blocks to the array: the kernel's result array is the merged array.

  The grid has one point per batch element. At point t every window's block is slab t of its array: the word block is
  words[t], the character block chars[t], and the three columns are row t of the index, rate and validity arrays that
  @main laid out as [64, 512, 1] before the call (the indices reshaped; the rate chosen by the head bit between two
  literals, then reshaped; the validity bit converted to a number, then reshaped). So what point t writes back, the
  body's stored value of those blocks, is slab t of the merged array (the point's value, read at an element, is
  mergedAt by the one-hot sum and the validity product); the 64 slabs tile the result array, so it ends holding the
  merged array.
-/
import proofs.«409317_j25099788878439_1_alg».proof.Proof.Gen.KernelIdeal.Value
import proofs.«409317_j25099788878439_1_alg».proof.Proof.KernelPoint
import proofs.«409317_j25099788878439_1_alg».proof.Proof.Merge
import proofs.«409317_j25099788878439_1_alg».proof.Proof.LibColumn
import Idealize.ShloMosaic.Lib.Pipeline.Value
import Idealize.ShloMosaic.Lib.StableHlo.Run

noncomputable section

namespace Cert.KernelIdeal.Merged

open Cert.KernelIdeal Cert.KernelIdeal.Gen Idealize.ShloMosaic Idealize.ShloMosaic.TcCoe Idealize.SL.Sem
open Idealize.ShloMosaic.ValueIdx Cert.Merge
open Idealize.ShloMosaic.Pipeline (Dat)

variable (m : (ℓ : Loc nD τ sig) → Buf (Elt Ideal) ℓ) (ρ : Dev nD → PrngReg)

/-! ## The argument arrays -/

abbrev words (c : Dev nD) : FVec Ideal S64x256x1024 .f32 := m ((c : Thread nD τ).loc main_arg0)
abbrev chars (c : Dev nD) : FVec Ideal S64x512x1024 .f32 := m ((c : Thread nD τ).loc main_arg1)
abbrev idxs (c : Dev nD) : IVec S64x512 32 := m ((c : Thread nD τ).loc main_arg2)
abbrev heads (c : Dev nD) : IVec S64x512 1 := m ((c : Thread nD τ).loc main_arg3)
abbrev valids (c : Dev nD) : IVec S64x512 1 := m ((c : Thread nD τ).loc main_arg4)

/-! ## The three columns @main lays out before the call, read at a position -/

/-- The index column is the word indices with a trailing unit axis. -/
theorem idx_col (c : Dev nD) (b : Fin 64) (s : Fin 512) (z : Fin 1) :
    (V m c main_v5 : S64x512x1.Idx → BitVec 32) (ix3 b s z) = idxs m c (ix2 b s) := by
  have e : (V m c main_v5 : S64x512x1.Idx → BitVec 32) = shapeCast S64x512x1 (idxs m c) shapeCasts_S64x512_S64x512x1 := by
    dsimp only [Gen.V]
    simp only [hostOps0, hostOps0_1, hostOps0_2, List.flatten_cons, List.flatten_nil, List.append_nil, List.cons_append,
      List.nil_append]
    after_results
    rfl
  rw [e, shapeCast_ab_ab1_apply]

/-- The rate column holds, at a position, the literal its head bit chooses. -/
theorem rate_col (c : Dev nD) (b : Fin 64) (s : Fin 512) (z : Fin 1) :
    (V m c main_v2 : S64x512x1.Idx → EReal) (ix3 b s z) = rate (heads m c (ix2 b s)) := by
  have e : (V m c main_v2 : S64x512x1.Idx → EReal) = shapeCast S64x512x1
      (select (heads m c) (broadcastInDim S64x512 ![] bcast_S_S64x512 (constant (F := Ideal) S_ .f32 0x3F6147AE#32))
        (broadcastInDim S64x512 ![] bcast_S_S64x512 (constant (F := Ideal) S_ .f32 0x3F333333#32)))
      shapeCasts_S64x512_S64x512x1 := by
    dsimp only [Gen.V]
    simp only [hostOps0, hostOps0_1, hostOps0_2, List.flatten_cons, List.flatten_nil, List.append_nil, List.cons_append,
      List.nil_append]
    after_results
    rfl
  rw [e, shapeCast_ab_ab1_apply, select_apply]
  rfl

/-- The validity column holds, at a position, the validity bit read as a number. -/
theorem valid_col (c : Dev nD) (b : Fin 64) (s : Fin 512) (z : Fin 1) :
    (V m c main_v4 : S64x512x1.Idx → EReal) (ix3 b s z) = (((valids m c (ix2 b s)).toNat : ℝ) : EReal) := by
  have e : (V m c main_v4 : S64x512x1.Idx → EReal) = shapeCast S64x512x1 (uitofp (F := Ideal) .f32 (valids m c))
      shapeCasts_S64x512_S64x512x1 := by
    dsimp only [Gen.V]
    simp only [hostOps0, hostOps0_1, hostOps0_2, List.flatten_cons, List.flatten_nil, List.append_nil, List.cons_append,
      List.nil_append]
    after_results
    rfl
  rw [e, shapeCast_ab_ab1_apply]
  rfl

/-! ## The blocks at a point: slab t of each array -/

theorem hz : (![0, 0, 0] : Fin 3 → Nat) = fun _ => 0 := funext fun a => by fin_cases a <;> rfl

/-- The grid has 64 points. -/
theorem tlt (t : Fin cfg0.N) : t.val < 64 := Nat.lt_of_lt_of_eq t.isLt N_0

/-- The printed index maps, decided over the grid: every window's block index at point t is (t, 0, 0). -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ (win0_4.index t (0 : Fin 3) = t.val ∧ win0_4.index t (1 : Fin 3) = 0 ∧ win0_4.index t (2 : Fin 3) = 0)
    ∧ (win0_5.index t (0 : Fin 3) = t.val ∧ win0_5.index t (1 : Fin 3) = 0 ∧ win0_5.index t (2 : Fin 3) = 0) :=
  (by decide +kernel : ∀ t : Fin grid0.N, _)

/-- The word block at point t is words[t]. -/
theorem blk_words (c : Dev nD) (t : Fin cfg0.N) (w : Fin 256) (h : Fin 1024) :
    iblk m c 0 t (ix3 (0 : Fin 1) w h) = words m c (ix3 (⟨t.val, tlt t⟩ : Fin 64) w h) := by
  show V m c main_arg0 (((cfg0.win 0).blk t).view.emb (ix3 (0 : Fin 1) w h)) = _
  rw [V_main_arg0]
  show words m c _ = words m c _
  congr 1
  funext a; apply Fin.ext
  obtain ⟨⟨e0, e1, e2⟩, -⟩ := idx_facts t
  match a with
  | ⟨0, _⟩ => show win0_0.index t (0 : Fin 3) * 1 + 1 * 0 = t.val; omega
  | ⟨1, _⟩ => show win0_0.index t (1 : Fin 3) * 256 + 1 * w.val = w.val; omega
  | ⟨2, _⟩ => show win0_0.index t (2 : Fin 3) * 1024 + 1 * h.val = h.val; omega

/-- The character block at point t is chars[t]. -/
theorem blk_chars (c : Dev nD) (t : Fin cfg0.N) (s : Fin 512) (h : Fin 1024) :
    iblk m c 1 t (ix3 (0 : Fin 1) s h) = chars m c (ix3 (⟨t.val, tlt t⟩ : Fin 64) s h) := by
  show V m c main_arg1 (((cfg0.win 1).blk t).view.emb (ix3 (0 : Fin 1) s h)) = _
  rw [V_main_arg1]
  show chars m c _ = chars m c _
  congr 1
  funext a; apply Fin.ext
  obtain ⟨-, ⟨e0, e1, e2⟩, -⟩ := idx_facts t
  match a with
  | ⟨0, _⟩ => show win0_1.index t (0 : Fin 3) * 1 + 1 * 0 = t.val; omega
  | ⟨1, _⟩ => show win0_1.index t (1 : Fin 3) * 512 + 1 * s.val = s.val; omega
  | ⟨2, _⟩ => show win0_1.index t (2 : Fin 3) * 1024 + 1 * h.val = h.val; omega

/-- A column block at point t reads its [64, 512, 1] array at (t, s, 0). -/
theorem col_emb2 (t : Fin cfg0.N) (s : Fin 512) :
    ((cfg0.win 2).blk t).view.emb (ix3 (0 : Fin 1) s (0 : Fin 1)) = ix3 (⟨t.val, tlt t⟩ : Fin 64) s (0 : Fin 1) := by
  funext a; apply Fin.ext
  obtain ⟨-, -, ⟨e0, e1, e2⟩, -⟩ := idx_facts t
  match a with
  | ⟨0, _⟩ => show win0_2.index t (0 : Fin 3) * 1 + 1 * 0 = t.val; omega
  | ⟨1, _⟩ => show win0_2.index t (1 : Fin 3) * 512 + 1 * s.val = s.val; omega
  | ⟨2, _⟩ => show win0_2.index t (2 : Fin 3) * 1 + 1 * 0 = 0; omega
theorem col_emb3 (t : Fin cfg0.N) (s : Fin 512) :
    ((cfg0.win 3).blk t).view.emb (ix3 (0 : Fin 1) s (0 : Fin 1)) = ix3 (⟨t.val, tlt t⟩ : Fin 64) s (0 : Fin 1) := by
  funext a; apply Fin.ext
  obtain ⟨-, -, -, ⟨e0, e1, e2⟩, -⟩ := idx_facts t
  match a with
  | ⟨0, _⟩ => show win0_3.index t (0 : Fin 3) * 1 + 1 * 0 = t.val; omega
  | ⟨1, _⟩ => show win0_3.index t (1 : Fin 3) * 512 + 1 * s.val = s.val; omega
  | ⟨2, _⟩ => show win0_3.index t (2 : Fin 3) * 1 + 1 * 0 = 0; omega
theorem col_emb4 (t : Fin cfg0.N) (s : Fin 512) :
    ((cfg0.win 4).blk t).view.emb (ix3 (0 : Fin 1) s (0 : Fin 1)) = ix3 (⟨t.val, tlt t⟩ : Fin 64) s (0 : Fin 1) := by
  funext a; apply Fin.ext
  obtain ⟨-, -, -, -, ⟨e0, e1, e2⟩, -⟩ := idx_facts t
  match a with
  | ⟨0, _⟩ => show win0_4.index t (0 : Fin 3) * 1 + 1 * 0 = t.val; omega
  | ⟨1, _⟩ => show win0_4.index t (1 : Fin 3) * 512 + 1 * s.val = s.val; omega
  | ⟨2, _⟩ => show win0_4.index t (2 : Fin 3) * 1 + 1 * 0 = 0; omega
theorem out_emb (t : Fin cfg0.N) (s : Fin 512) (h : Fin 1024) :
    ((cfg0.win 5).blk t).view.emb (ix3 (0 : Fin 1) s h) = ix3 (⟨t.val, tlt t⟩ : Fin 64) s h := by
  funext a; apply Fin.ext
  obtain ⟨-, -, -, -, -, e0, e1, e2⟩ := idx_facts t
  match a with
  | ⟨0, _⟩ => show win0_5.index t (0 : Fin 3) * 1 + 1 * 0 = t.val; omega
  | ⟨1, _⟩ => show win0_5.index t (1 : Fin 3) * 512 + 1 * s.val = s.val; omega
  | ⟨2, _⟩ => show win0_5.index t (2 : Fin 3) * 1024 + 1 * h.val = h.val; omega

/-- The index block at point t is the word indices of batch t. -/
theorem blk_idx (c : Dev nD) (t : Fin cfg0.N) (s : Fin 512) :
    iblk m c 2 t (ix3 (0 : Fin 1) s (0 : Fin 1)) = idxs m c (ix2 (⟨t.val, tlt t⟩ : Fin 64) s) := by
  show (V m c main_v5 : S64x512x1.Idx → BitVec 32) (((cfg0.win 2).blk t).view.emb (ix3 (0 : Fin 1) s (0 : Fin 1))) = _
  rw [col_emb2, idx_col]

/-- The rate block at point t is the rates of batch t. -/
theorem blk_rate (c : Dev nD) (t : Fin cfg0.N) (s : Fin 512) :
    iblk m c 3 t (ix3 (0 : Fin 1) s (0 : Fin 1)) = rate (heads m c (ix2 (⟨t.val, tlt t⟩ : Fin 64) s)) := by
  show (V m c main_v2 : S64x512x1.Idx → EReal) (((cfg0.win 3).blk t).view.emb (ix3 (0 : Fin 1) s (0 : Fin 1))) = _
  rw [col_emb3, rate_col]

/-- The validity block at point t is the validity numbers of batch t. -/
theorem blk_valid (c : Dev nD) (t : Fin cfg0.N) (s : Fin 512) :
    iblk m c 4 t (ix3 (0 : Fin 1) s (0 : Fin 1)) = (((valids m c (ix2 (⟨t.val, tlt t⟩ : Fin 64) s)).toNat : ℝ) : EReal) := by
  show (V m c main_v4 : S64x512x1.Idx → EReal) (((cfg0.win 4).blk t).view.emb (ix3 (0 : Fin 1) s (0 : Fin 1))) = _
  rw [col_emb4, valid_col]

/-! ## What a point writes back, and the final array -/

/-- WHAT POINT t WRITES BACK is slab t of the merged array. -/
theorem flushed_eq (c : Dev nD) (hin : ∀ i, InRange (idxs m c i)) (t : Fin cfg0.N) :
    (dats m 0 c).flushed 5 t = ((cfg0.win 5).blk t).view.read (Elt Ideal)
      (merged (words m c) (chars m c) (idxs m c) (heads m c) (valids m c)) := by
  rw [Value.flushed5]
  unfold out0_5
  rw [View.canon_unit_zero hz]
  simp only [View.ld_unit_zero (S := S1x256x1024) hz, View.ld_unit_zero (S := S1x512x1024) hz, View.ld_unit_zero (S := S1x512x1) hz]
  funext j
  obtain ⟨z, s, h, rfl⟩ : ∃ (z : Fin 1) (s : Fin 512) (h : Fin 1024), j = ix3 z s h :=
    ⟨j 0, j 1, j 2, eq_ix3 (n0 := 1) (n1 := 512) (n2 := 1024) j⟩
  obtain rfl : z = 0 := Subsingleton.elim _ _
  show k0_pay1 (F := Ideal) (iblk m c 0 t) (iblk m c 2 t) (iblk m c 1 t) (iblk m c 3 t) (iblk m c 4 t) (ix3 (0 : Fin 1) s h)
    = merged (words m c) (chars m c) (idxs m c) (heads m c) (valids m c) (((cfg0.win 5).blk t).view.emb (ix3 (0 : Fin 1) s h))
  rw [out_emb, merged_ix3]
  exact Point.point_eq (words m c) (chars m c) (idxs m c) (heads m c) (valids m c) hin ⟨t.val, tlt t⟩
    (iblk m c 0 t) (iblk m c 1 t) (iblk m c 2 t) (iblk m c 3 t) (iblk m c 4 t)
    (fun w h => blk_words m c t w h) (fun s h => blk_chars m c t s h) (fun s => blk_idx m c t s)
    (fun s => blk_rate m c t s) (fun s => blk_valid m c t s) s h

/-- An index of the result array is in point t's block iff each coordinate is in the block's range on its axis. -/
theorem mem_blk (t : Fin cfg0.N) (i : S64x512x1024.Idx) :
    i ∈ ((cfg0.win 5).blk t).view.set ↔ ∀ a : Fin 3, win0_5.index t a * S1x512x1024.size a ≤ (i a).val
      ∧ (i a).val < win0_5.index t a * S1x512x1024.size a + S1x512x1024.size a := by
  show i ∈ ((View.whole main_v6).slice (win0_5.rect t)).set ↔ _
  rw [View.set_slice_whole, Rect.mem_set_unit]
  exact Iff.rfl

/-- THE RESULT ARRAY after the run is the merged array: the 64 slabs tile it. -/
theorem final (c : Dev nD) (hin : ∀ i, InRange (idxs m c i)) :
    (dats m 0 c).arrAt 5 cfg0.N = merged (words m c) (chars m c) (idxs m c) (heads m c) (valids m c) :=
  (dats m 0 c).arrAt_eq_of_cover 5 (merged (words m c) (chars m c) (idxs m c) (heads m c) (valids m c))
    (fun t _ => flushed_eq m c hin t) fun i => by
      have hb : (i 0).val < 64 := (i 0).isLt
      have h1 : (i 1).val < 512 := (i 1).isLt
      have h2 : (i 2).val < 1024 := (i 2).isLt
      obtain ⟨t, ht⟩ : ∃ t : Fin cfg0.N, t.val = (i 0).val := ⟨⟨(i 0).val, Nat.lt_of_lt_of_eq hb N_0.symm⟩, rfl⟩
      refine ⟨t, flush0_5 t, ?_⟩
      rw [mem_blk]
      obtain ⟨-, -, -, -, -, e0, e1, e2⟩ := idx_facts t
      intro a
      match a with
      | ⟨0, _⟩ =>
        show win0_5.index t (0 : Fin 3) * 1 ≤ (i 0).val ∧ (i 0).val < win0_5.index t (0 : Fin 3) * 1 + 1
        omega
      | ⟨1, _⟩ =>
        show win0_5.index t (1 : Fin 3) * 512 ≤ (i 1).val ∧ (i 1).val < win0_5.index t (1 : Fin 3) * 512 + 512
        omega
      | ⟨2, _⟩ =>
        show win0_5.index t (2 : Fin 3) * 1024 ≤ (i 2).val ∧ (i 2).val < win0_5.index t (2 : Fin 3) * 1024 + 1024
        omega

/-! ## The run, read -/

/-- The kernel's run re-posted: the result array at the merged array of the arguments, the arguments unchanged. -/
theorem run (hin : ∀ c i, InRange (idxs m c i)) :
    θ_run defs (onTc (τ := τ) (main (F := Ideal))) ⟨m, fun _ => 0, ρ⟩ fun r => ∀ c : Dev nD,
      r.2.mem ((c : Thread nD τ).loc main_v6) = merged (words m c) (chars m c) (idxs m c) (heads m c) (valids m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c (hin c)), (h c).2⟩) (Value.run_blocks m ρ)

end Cert.KernelIdeal.Merged

end
-- ==== Proof.Decode.lean ====
/-
  What the precondition says of the word indices.

  The precondition is a conjunction of four `all`s; the last two say of every word index that it is ≥ 0 and < 256 as a
  signed integer. Reading the conjunction apart and each `all` back at an index gives InRange of every word index. (The
  first two conjuncts, finiteness of the float inputs, are not used: on the extended reals 0 · x = 0 for every x.)
-/
import proofs.«409317_j25099788878439_1_alg».proof.Pre_finite_inputs
import proofs.«409317_j25099788878439_1_alg».proof.Proof.Merge
import Idealize.ShloMosaic.Lib.ReduceAll

noncomputable section

open Idealize.ShloMosaic Idealize.ShloMosaic.ValueIdx

namespace Cert.Merge

open Cert.Pre_finite_inputs

variable [Cert.Pre_finite_inputs.Facts]
open Cert.Pre_finite_inputs.Facts

instance : Subsingleton Cert.Pre_finite_inputs.S_.Idx := ⟨fun _ _ => funext fun d => d.elim0⟩

/-- Under the precondition every word index is a row of the word table. -/
theorem inRange_of_pre {F : FTy → Type} [FloatOps F] (a0 : FVec F S64x256x1024 .f32) (a1 : FVec F S64x512x1024 .f32)
    (a2 : IVec S64x512 32) (a3 a4 : IVec S64x512 1)
    (hpre : Cert.Pre_finite_inputs.fn (F := F) a0 a1 a2 a3 a4 = fun _ => 1#1) (i : S64x512.Idx) : InRange (a2 i) := by
  have h0 := congrFun hpre ix0
  dsimp only [Cert.Pre_finite_inputs.fn, Cert.Pre_finite_inputs.fn_part1] at h0
  obtain ⟨h12, h15⟩ := IntOp.andi_eq_one.mp (show IntOp.andi _ _ = 1#1 from h0)
  obtain ⟨_, h11⟩ := IntOp.andi_eq_one.mp (show IntOp.andi _ _ = 1#1 from h12)
  have hge := Host.reduce_andi_all _ _ _ _ _ h11 i
  have hlt := Host.reduce_andi_all _ _ _ _ _ h15 i
  exact inRange_of_cmp hge hlt

end Cert.Merge

end
-- ==== Proof.lean ====
/- The proof of `Cert.Claim` (proofs.«409317_j25099788878439_1_alg».proof.Defs).

   The kernel merges word and character features per character position: it gathers the position's word row by a
   one-hot [512, 256] × [256, 1024] matrix product, blends it with the character row at a rate chosen by the head bit,
   and multiplies by the validity bit read as a number; the reference gathers the row with take_along_axis, blends the
   same way and selects zero where the position is not valid. Over the extended reals both are one function of the
   arguments, `Cert.Merge.merged` (Proof/Merge.lean), provided every word index is a row of the word table, 0 ≤ index <
   256, which is what the precondition states beside finiteness (Proof/Decode.lean reads it back; finiteness itself is
   not used, since 0 · x = 0 for every extended real x):
   * the kernel's result array is `merged` of the arguments (Proof/KernelPoint.lean: the stored value at an element, the
     matrix product a sum over the 256 word rows against the one-hot coefficients; Proof/KernelArray.lean: each grid
     point writes slab t, and the 64 slabs tile the array);
   * the reference's result is `merged` of the arguments (Proof/RefValue.lean, over the reference's run read one
     operation at a time and the batched take of Proof/LibTakeAlong.lean).
   The three frames are the generated frame runs (the reference's its run with the result dropped), and `preserves` is
   trivial: the idealization rewrote nothing. -/
import proofs.«409317_j25099788878439_1_alg».proof.Defs
import proofs.«409317_j25099788878439_1_alg».proof.Proof.Gen.Kernel
import proofs.«409317_j25099788878439_1_alg».proof.Proof.Gen.Kernel.Skeleton
import proofs.«409317_j25099788878439_1_alg».proof.Proof.Gen.Kernel.Launch
import proofs.«409317_j25099788878439_1_alg».proof.Proof.Gen.Kernel.Points
import proofs.«409317_j25099788878439_1_alg».proof.Proof.Gen.Kernel.Frame
import proofs.«409317_j25099788878439_1_alg».proof.Proof.Gen.KernelIdeal
import proofs.«409317_j25099788878439_1_alg».proof.Proof.Gen.KernelIdeal.Skeleton
import proofs.«409317_j25099788878439_1_alg».proof.Proof.Gen.KernelIdeal.Launch
import proofs.«409317_j25099788878439_1_alg».proof.Proof.Gen.KernelIdeal.Points
import proofs.«409317_j25099788878439_1_alg».proof.Proof.Gen.KernelIdeal.Frame
import proofs.«409317_j25099788878439_1_alg».proof.Proof.Gen.ReferenceIdeal
import proofs.«409317_j25099788878439_1_alg».proof.Proof.Gen.Pre_finite_inputs
import proofs.«409317_j25099788878439_1_alg».proof.Proof.Gen.KernelIdeal.Value
import proofs.«409317_j25099788878439_1_alg».proof.Proof.RefRun
import proofs.«409317_j25099788878439_1_alg».proof.Proof.RefRead
import proofs.«409317_j25099788878439_1_alg».proof.Proof.RefValue
import proofs.«409317_j25099788878439_1_alg».proof.Proof.KernelArray
import proofs.«409317_j25099788878439_1_alg».proof.Proof.Decode
import Idealize.ShloMosaic.Adequacy
import Idealize.ShloMosaic.Init

noncomputable section

namespace Cert.Proof

open Idealize.ShloMosaic Idealize.SL.Sem

/-- The kernel as printed runs and keeps its arguments: the generated frame. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- Both programs end with the merged array of the (agreeing) arguments: the kernel by its slabs, the reference by its
    operations read at an index; the precondition's range of the word indices is what makes the one-hot sum the
    gathered row. -/
theorem algebraic : Cert.algebraic_KernelIdeal_ReferenceIdeal := by
  intro m ρ m' ρ' hpre hagree
  have hin : ∀ c i, Cert.Merge.InRange (Cert.KernelIdeal.Merged.idxs m c i) :=
    fun c i => Cert.Merge.inRange_of_pre _ _ _ _ _ (hpre c) i
  refine ⟨_, Cert.KernelIdeal.Merged.run m ρ hin, ?_⟩
  refine (θ_run Cert.ReferenceIdeal.defs _ _).mono (fun _ h c => ⟨(h c).1.trans ?_, (h c).2⟩)
    (Cert.ReferenceIdeal.ValueP.run (F := Ideal) m' ρ')
  rw [(hagree c).1, (hagree c).2.1, (hagree c).2.2.1, (hagree c).2.2.2.1, (hagree c).2.2.2.2]
  exact (Cert.ReferenceIdeal.ReadP.val_main_v13_eq _ _ _ _ _).trans
    (Cert.ReferenceIdeal.RefValue.result_eq _ _ _ _ _ (hin c))

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
